-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel

variable [Facts]

def fn {F : FTy → Type} [FloatOps F] (main_arg0 : FVec F S8388608x4 .f32) (main_arg1 : FVec F S8388608x4 .f32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  let main_v4 : FVec F S8388608x4 .f32 := Host.absf main_arg1
  let main_cst_0 : FVec F S_ .f32 := constant S_ .f32 0x7F800000#32
  let main_v5 : FVec F S8388608x4 .f32 := broadcastInDim S8388608x4 ![] bcast_S_S8388608x4 main_cst_0
  let main_v6 : IVec S8388608x4 1 := cmpf .olt main_v4 main_v5
  let main_c_1 : IVec S_ 1 := constantI S_ 1 1#1
  let main_v7 : IVec S_ 1 := (fun x v => Host.reduce IntOp.andi x v reducesTo_S8388608x4_S_d0_1 h_S_) main_v6 main_c_1
  let main_v8 : IVec S_ 1 := andi main_v3 main_v7
  main_v8
-- ==== Kernel.lean ====
abbrev S8388608x4 : Shape := ⟨2, ![8388608, 4]⟩
abbrev S8388608x1 : Shape := ⟨2, ![8388608, 1]⟩
abbrev S2048x4 : Shape := ⟨2, ![2048, 4]⟩
abbrev S2048x1 : Shape := ⟨2, ![2048, 1]⟩

abbrev nBuf : Space → Nat
  | .hbm => 4
  | .vmem => 8
  | .smem => 0
  | _ => 0

abbrev bufTy : (tb : Table) → Fin (tcTables nBuf tb) → BufTy
  | .hbm, ⟨0, _⟩ => ⟨S8388608x4, .f32⟩
  | .hbm, ⟨1, _⟩ => ⟨S8388608x4, .f32⟩
  | .hbm, ⟨2, _⟩ => ⟨S8388608x4, .f32⟩
  | .hbm, ⟨3, _⟩ => ⟨S8388608x1, .f32⟩
  | .local _ .vmem, ⟨0, _⟩ => ⟨S2048x4, .f32⟩
  | .local _ .vmem, ⟨1, _⟩ => ⟨S2048x4, .f32⟩
  | .local _ .vmem, ⟨2, _⟩ => ⟨S2048x4, .f32⟩
  | .local _ .vmem, ⟨3, _⟩ => ⟨S2048x4, .f32⟩
  | .local _ .vmem, ⟨4, _⟩ => ⟨S2048x4, .f32⟩
  | .local _ .vmem, ⟨5, _⟩ => ⟨S2048x4, .f32⟩
  | .local _ .vmem, ⟨6, _⟩ => ⟨S2048x1, .f32⟩
  | .local _ .vmem, ⟨7, _⟩ => ⟨S2048x1, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4096], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2048x4_S2048x4_0_0 : ∀ a, (![0, 0] : Fin 2 → Nat) a + S2048x4.size a ≤ S2048x4.size a
  h_S2048x4 : 0 < S2048x4.numel
  slices_S2048x4_o0_3_S2048x1 : S2048x4.Slices ![0, 3] S2048x1
  slices_S2048x4_o0_2_S2048x1 : S2048x4.Slices ![0, 2] S2048x1
  slices_S2048x4_o0_1_S2048x1 : S2048x4.Slices ![0, 1] S2048x1
  slices_S2048x4_o0_0_S2048x1 : S2048x4.Slices ![0, 0] S2048x1
  concatenates_S2048x1_S2048x1_S2048x1_S2048x1_S2048x4_d1 : Shape.Concatenates [S2048x1, S2048x1, S2048x1, S2048x1] S2048x4 1
  inb_S2048x1_S2048x1_0_0 : ∀ a, (![0, 0] : Fin 2 → Nat) a + S2048x1.size a ≤ S2048x1.size a
  h_S2048x1 : 0 < S2048x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4.size a ≤ S8388608x4.size a
  hwx0_0 : ∀ i : grid0.Coords, EltTy.bits .f32 = 32 ∨ (Rect.block (s := S8388608x4) S2048x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x4.size a ≤ S8388608x4.size a
  hwx0_1 : ∀ i : grid0.Coords, EltTy.bits .f32 = 32 ∨ (Rect.block (s := S8388608x4) S2048x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x4.size a ≤ S8388608x4.size a
  hwx0_2 : ∀ i : grid0.Coords, EltTy.bits .f32 = 32 ∨ (Rect.block (s := S8388608x4) S2048x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S8388608x1.size a
  hwx0_3 : ∀ i : grid0.Coords, EltTy.bits .f32 = 32 ∨ (Rect.block (s := S8388608x1) S2048x1.size (cc0_transform_3 i) (hinb0_3 i)).WholeWords (EltTy.packing .f32)

variable [Facts₀]

abbrev win0_0 : Pipeline.Window sig grid0 :=
  Pipeline.Window.ofSpec (Memref.whole main_arg0) S2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2048x4.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8388608x4 : Shape := ⟨2, ![8388608, 4]⟩
abbrev S8388608x1 : Shape := ⟨2, ![8388608, 1]⟩
abbrev S_ : Shape := ⟨0, ![]⟩

abbrev nBuf : Space → Nat
  | .hbm => 110
  | .vmem => 0
  | .smem => 0
  | _ => 0

abbrev bufTy : (tb : Table) → Fin (tcTables nBuf tb) → BufTy
  | .hbm, ⟨0, _⟩ => ⟨S8388608x4, .f32⟩
  | .hbm, ⟨1, _⟩ => ⟨S8388608x4, .f32⟩
  | .hbm, ⟨2, _⟩ => ⟨S8388608x1, .f32⟩
  | .hbm, ⟨3, _⟩ => ⟨S_, .f32⟩
  | .hbm, ⟨4, _⟩ => ⟨S8388608x1, .f32⟩
  | .hbm, ⟨5, _⟩ => ⟨S8388608x1, .f32⟩
  | .hbm, ⟨6, _⟩ => ⟨S8388608x1, .f32⟩
  | .hbm, ⟨7, _⟩ => ⟨S8388608x1, .f32⟩
  | .hbm, ⟨8, _⟩ => ⟨S_, .f32⟩
  | .hbm, ⟨9, _⟩ => ⟨S8388608x1, .f32⟩
  | .hbm, ⟨10, _⟩ => ⟨S8388608x1, .f32⟩
  | .hbm, ⟨11, _⟩ => ⟨S8388608x1, .f32⟩
  | .hbm, ⟨12, _⟩ => ⟨S8388608x1, .f32⟩
  | .hbm, ⟨13, _⟩ => ⟨S8388608x1, .f32⟩
  | .hbm, ⟨14, _⟩ => ⟨S_, .f32⟩
  | .hbm, ⟨15, _⟩ => ⟨S8388608x1, .f32⟩
  | .hbm, ⟨16, _⟩ => ⟨S8388608x1, .f32⟩
  | .hbm, ⟨17, _⟩ => ⟨S8388608x1, .f32⟩
  | .hbm, ⟨18, _⟩ => ⟨S8388608x1, .f32⟩
  | .hbm, ⟨19, _⟩ => ⟨S_, .f32⟩
  | .hbm, ⟨20, _⟩ => ⟨S8388608x1, .f32⟩
  | .hbm, ⟨21, _⟩ => ⟨S8388608x1, .f32⟩
  | .hbm, ⟨22, _⟩ => ⟨S8388608x1, .f32⟩
  | .hbm, ⟨23, _⟩ => ⟨S8388608x1, .f32⟩
  | .hbm, ⟨24, _⟩ => ⟨S8388608x1, .f32⟩
  | .hbm, ⟨25, _⟩ => ⟨S8388608x1, .f32⟩
  | .hbm, ⟨26, _⟩ => ⟨S8388608x1, .f32⟩
  | .hbm, ⟨27, _⟩ => ⟨S8388608x1, .f32⟩
  | .hbm, ⟨28, _⟩ => ⟨S8388608x1, .f32⟩
  | .hbm, ⟨29, _⟩ => ⟨S8388608x1, .f32⟩
  | .hbm, ⟨30, _⟩ => ⟨S8388608x1, .f32⟩
  | .hbm, ⟨31, _⟩ => ⟨S8388608x1, .f32⟩
  | .hbm, ⟨32, _⟩ => ⟨S8388608x1, .f32⟩
  | .hbm, ⟨33, _⟩ => ⟨S8388608x1, .f32⟩
  | .hbm, ⟨34, _⟩ => ⟨S_, .f32⟩
  | .hbm, ⟨35, _⟩ => ⟨S8388608x1, .f32⟩
  | .hbm, ⟨36, _⟩ => ⟨S8388608x1, .f32⟩
  | .hbm, ⟨37, _⟩ => ⟨S8388608x1, .f32⟩
  | .hbm, ⟨38, _⟩ => ⟨S8388608x1, .f32⟩
  | .hbm, ⟨39, _⟩ => ⟨S8388608x1, .f32⟩
  | .hbm, ⟨40, _⟩ => ⟨S_, .f32⟩
  | .hbm, ⟨41, _⟩ => ⟨S8388608x1, .f32⟩
  | .hbm, ⟨42, _⟩ => ⟨S8388608x1, .f32⟩
  | .hbm, ⟨43, _⟩ => ⟨S8388608x1, .f32⟩
  | .hbm, ⟨44, _⟩ => ⟨S8388608x1, .f32⟩
  | .hbm, ⟨45, _⟩ => ⟨S_, .f32⟩
  | .hbm, ⟨46, _⟩ => ⟨S8388608x1, .f32⟩
  | .hbm, ⟨47, _⟩ => ⟨S8388608x1, .f32⟩
  | .hbm, ⟨48, _⟩ => ⟨S8388608x1, .f32⟩
  | .hbm, ⟨49, _⟩ => ⟨S8388608x1, .f32⟩
  | .hbm, ⟨50, _⟩ => ⟨S8388608x1, .f32⟩
  | .hbm, ⟨51, _⟩ => ⟨S8388608x1, .f32⟩
  | .hbm, ⟨52, _⟩ => ⟨S8388608x1, .f32⟩
  | .hbm, ⟨53, _⟩ => ⟨S8388608x1, .f32⟩
  | .hbm, ⟨54, _⟩ => ⟨S8388608x1, .f32⟩
  | .hbm, ⟨55, _⟩ => ⟨S8388608x1, .f32⟩
  | .hbm, ⟨56, _⟩ => ⟨S8388608x1, .f32⟩
  | .hbm, ⟨57, _⟩ => ⟨S8388608x1, .f32⟩
  | .hbm, ⟨58, _⟩ => ⟨S8388608x1, .f32⟩
  | .hbm, ⟨59, _⟩ => ⟨S8388608x1, .f32⟩
  | .hbm, ⟨60, _⟩ => ⟨S_, .f32⟩
  | .hbm, ⟨61, _⟩ => ⟨S8388608x1, .f32⟩
  | .hbm, ⟨62, _⟩ => ⟨S8388608x1, .f32⟩
  | .hbm, ⟨63, _⟩ => ⟨S8388608x1, .f32⟩
  | .hbm, ⟨64, _⟩ => ⟨S8388608x1, .f32⟩
  | .hbm, ⟨65, _⟩ => ⟨S8388608x1, .f32⟩
  | .hbm, ⟨66, _⟩ => ⟨S_, .f32⟩
  | .hbm, ⟨67, _⟩ => ⟨S8388608x1, .f32⟩
  | .hbm, ⟨68, _⟩ => ⟨S8388608x1, .f32⟩
  | .hbm, ⟨69, _⟩ => ⟨S8388608x1, .f32⟩
  | .hbm, ⟨70, _⟩ => ⟨S8388608x1, .f32⟩
  | .hbm, ⟨71, _⟩ => ⟨S_, .f32⟩
  | .hbm, ⟨72, _⟩ => ⟨S8388608x1, .f32⟩
  | .hbm, ⟨73, _⟩ => ⟨S8388608x1, .f32⟩
  | .hbm, ⟨74, _⟩ => ⟨S8388608x1, .f32⟩
  | .hbm, ⟨75, _⟩ => ⟨S8388608x1, .f32⟩
  | .hbm, ⟨76, _⟩ => ⟨S8388608x1, .f32⟩
  | .hbm, ⟨77, _⟩ => ⟨S8388608x1, .f32⟩
  | .hbm, ⟨78, _⟩ => ⟨S8388608x1, .f32⟩
  | .hbm, ⟨79, _⟩ => ⟨S8388608x1, .f32⟩
  | .hbm, ⟨80, _⟩ => ⟨S8388608x1, .f32⟩
  | .hbm, ⟨81, _⟩ => ⟨S8388608x1, .f32⟩
  | .hbm, ⟨82, _⟩ => ⟨S8388608x1, .f32⟩
  | .hbm, ⟨83, _⟩ => ⟨S8388608x1, .f32⟩
  | .hbm, ⟨84, _⟩ => ⟨S8388608x1, .f32⟩
  | .hbm, ⟨85, _⟩ => ⟨S8388608x1, .f32⟩
  | .hbm, ⟨86, _⟩ => ⟨S_, .f32⟩
  | .hbm, ⟨87, _⟩ => ⟨S8388608x1, .f32⟩
  | .hbm, ⟨88, _⟩ => ⟨S8388608x1, .f32⟩
  | .hbm, ⟨89, _⟩ => ⟨S8388608x1, .f32⟩
  | .hbm, ⟨90, _⟩ => ⟨S8388608x1, .f32⟩
  | .hbm, ⟨91, _⟩ => ⟨S8388608x1, .f32⟩
  | .hbm, ⟨92, _⟩ => ⟨S_, .f32⟩
  | .hbm, ⟨93, _⟩ => ⟨S8388608x1, .f32⟩
  | .hbm, ⟨94, _⟩ => ⟨S8388608x1, .f32⟩
  | .hbm, ⟨95, _⟩ => ⟨S8388608x1, .f32⟩
  | .hbm, ⟨96, _⟩ => ⟨S8388608x1, .f32⟩
  | .hbm, ⟨97, _⟩ => ⟨S_, .f32⟩
  | .hbm, ⟨98, _⟩ => ⟨S8388608x1, .f32⟩
  | .hbm, ⟨99, _⟩ => ⟨S8388608x1, .f32⟩
  | .hbm, ⟨100, _⟩ => ⟨S8388608x1, .f32⟩
  | .hbm, ⟨101, _⟩ => ⟨S8388608x1, .f32⟩
  | .hbm, ⟨102, _⟩ => ⟨S8388608x1, .f32⟩
  | .hbm, ⟨103, _⟩ => ⟨S8388608x1, .f32⟩
  | .hbm, ⟨104, _⟩ => ⟨S8388608x1, .f32⟩
  | .hbm, ⟨105, _⟩ => ⟨S8388608x1, .f32⟩
  | .hbm, ⟨106, _⟩ => ⟨S8388608x1, .f32⟩
  | .hbm, ⟨107, _⟩ => ⟨S8388608x1, .f32⟩
  | .hbm, ⟨108, _⟩ => ⟨S8388608x1, .f32⟩
  | .hbm, ⟨109, _⟩ => ⟨S8388608x4, .f32⟩
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_6 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_7 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_8 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_9 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_10 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_11 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩

abbrev nD : Nat := 1
abbrev τ : Topo := Topo.v7x

variable {F : FTy → Type} [FloatOps F]

class Facts₀ : Prop where
  slices_S8388608x4_S8388608x1_0_0 : S8388608x4.Slices ![0, 0] S8388608x1
  bcast_S_S8388608x1 : S_.BroadcastsInDim S8388608x1 (![] : Fin 0 → Fin S8388608x1.rank)
  slices_S8388608x4_S8388608x1_0_3 : S8388608x4.Slices ![0, 3] S8388608x1
  slices_S8388608x4_S8388608x1_0_2 : S8388608x4.Slices ![0, 2] S8388608x1
  slices_S8388608x4_S8388608x1_0_1 : S8388608x4.Slices ![0, 1] S8388608x1
  concatenates_S8388608x1_S8388608x1_S8388608x1_S8388608x1_S8388608x4_d1 : Shape.Concatenates [S8388608x1, S8388608x1, S8388608x1, S8388608x1] S8388608x4 1

variable [Facts₀]

class Facts : Prop extends Facts₀ where

variable [Facts]
-- ==== Proof.Subtractor.lean ====
/-
  The four-bit ripple-borrow subtractor as a function of one row.

  A row holds the four bits of `a` and of `b`, column 3 the least significant. Working from column 3 up to
  column 0 with a borrow that starts at zero, each position computes
    t      = xor a b            where  xor p q = p + q - 2 * p * q
    diff   = xor t borrow
    borrow = or (or ((1 - a) * b) ((1 - a) * borrow)) (b * borrow)     where  or p q = p + q - p * q
  on the extended reals, the three literals being the float words of 0, 1 and 2. The results are the four
  difference bits in their columns and the last borrow. Nothing here uses any law of the extended reals: the
  two programs compared spell these very terms.
-/
import Idealize.ShloMosaic.PureOps.Ideal
import Idealize.ShloMosaic.Lib.ValueIdx

noncomputable section

namespace Cert.Subtractor

open Idealize.ShloMosaic Idealize.ShloMosaic.ValueIdx

/-- The float word of `0.0`, `1.0` and `2.0`, read at the ideal instance. -/
abbrev lit0 : EReal := Ideal.ofBits .f32 0x00000000#32
abbrev lit1 : EReal := Ideal.ofBits .f32 0x3F800000#32
abbrev lit2 : EReal := Ideal.ofBits .f32 0x40000000#32

/-- Exclusive or of two bits as arithmetic: `p + q - 2 p q`. -/
def xorGate (p q : EReal) : EReal := p + q - lit2 * p * q
/-- Or of two bits as arithmetic: `p + q - p q`. -/
def orGate (p q : EReal) : EReal := p + q - p * q
/-- The difference bit of one position from its two bits and the incoming borrow. -/
def diffBit (a b br : EReal) : EReal := xorGate (xorGate a b) br
/-- The outgoing borrow of one position. -/
def borrowBit (a b br : EReal) : EReal := orGate (orGate ((lit1 - a) * b) ((lit1 - a) * br)) (b * br)

/-- The borrow out of column 3, 2, 1, 0 of a row. -/
def borrow3 (a b : Fin 4 → EReal) : EReal := borrowBit (a 3) (b 3) lit0
def borrow2 (a b : Fin 4 → EReal) : EReal := borrowBit (a 2) (b 2) (borrow3 a b)
def borrow1 (a b : Fin 4 → EReal) : EReal := borrowBit (a 1) (b 1) (borrow2 a b)
def borrow0 (a b : Fin 4 → EReal) : EReal := borrowBit (a 0) (b 0) (borrow1 a b)

/-- The difference bit of column 3, 2, 1, 0 of a row. -/
def diff3 (a b : Fin 4 → EReal) : EReal := diffBit (a 3) (b 3) lit0
def diff2 (a b : Fin 4 → EReal) : EReal := diffBit (a 2) (b 2) (borrow3 a b)
def diff1 (a b : Fin 4 → EReal) : EReal := diffBit (a 1) (b 1) (borrow2 a b)
def diff0 (a b : Fin 4 → EReal) : EReal := diffBit (a 0) (b 0) (borrow1 a b)

/-- The four difference bits of a row, by column. -/
def diffs (a b : Fin 4 → EReal) : Fin 4 → EReal := ![diff0 a b, diff1 a b, diff2 a b, diff3 a b]

/-- Row `r` of an `[n, 4]` array. -/
def rowOf {n : Nat} (A : (⟨2, ![n, 4]⟩ : Shape).Idx → EReal) (r : Fin n) : Fin 4 → EReal := fun k => A (ix2 r k)

/-- The subtractor applied to every row: the `[n, 4]` array of difference bits … -/
def diffArray {n : Nat} (A B : (⟨2, ![n, 4]⟩ : Shape).Idx → EReal) : (⟨2, ![n, 4]⟩ : Shape).Idx → EReal :=
  fun j => diffs (rowOf A (j 0)) (rowOf B (j 0)) (j 1)
/-- … and the `[n, 1]` column of final borrows. -/
def borrowArray {n : Nat} (A B : (⟨2, ![n, 4]⟩ : Shape).Idx → EReal) : (⟨2, ![n, 1]⟩ : Shape).Idx → EReal :=
  fun j => borrow0 (rowOf A (j 0)) (rowOf B (j 0))

theorem diffArray_apply {n : Nat} (A B : (⟨2, ![n, 4]⟩ : Shape).Idx → EReal) (r : Fin n) (k : Fin 4) :
    diffArray A B (ix2 r k) = diffs (rowOf A r) (rowOf B r) k := rfl
theorem borrowArray_apply {n : Nat} (A B : (⟨2, ![n, 4]⟩ : Shape).Idx → EReal) (r : Fin n) (z : Fin 1) :
    borrowArray A B (ix2 r z) = borrow0 (rowOf A r) (rowOf B r) := rfl

end Cert.Subtractor

end
-- ==== Proof.LibColumns.lean ====
/-
  Columns of a two-axis array, read at an index.

  A unit-stride slice that keeps every row and the single column `c` of an `[n, w]` array is, at row `r`,
  the array's entry `(r, c)`. The concatenation along the second axis of four `[n, 1]` columns is, at
  `(r, k)`, the `k`-th column at row `r`. Both hold for any element type and any row count.
-/
import Idealize.ShloMosaic.Lib.ValueIdx
import Idealize.ShloMosaic.Lib.Pipeline.Value

namespace Cert.Columns

open Idealize.ShloMosaic Idealize.ShloMosaic.ValueIdx

variable {α : Type}

/-- The slice `[0:n, off:off+1]` of an `[n, w]` array, read at row `r`, is the array at `(r, c)` for the
    column `c` whose number is `off`. -/
theorem slice_col_apply {n w : Nat} (off : Nat) (x : (⟨2, ![n, w]⟩ : Shape).Idx → α)
    (h : (⟨2, ![n, w]⟩ : Shape).Slices ![0, off] ⟨2, ![n, 1]⟩) (r : Fin n) (z : Fin 1) (c : Fin w)
    (hc : c.val = off) :
    extractStridedSlice ⟨2, ![n, 1]⟩ ![0, off] x h (ix2 r z) = x (ix2 r c) :=
  extractStridedSlice_apply _ x h _ _ fun a => by
    match a with
    | ⟨0, _⟩ => show r.val = 0 + r.val; omega
    | ⟨1, _⟩ => show c.val = off + z.val; have := z.isLt; omega

/-- Four `[n, 1]` columns concatenated along the second axis, read at `(r, k)`: column `k` at row `r`. -/
theorem concat4_cols_apply {n : Nat} (x0 x1 x2 x3 : (⟨2, ![n, 1]⟩ : Shape).Idx → α)
    (h : Shape.Concatenates
      (([⟨⟨2, ![n, 1]⟩, x0⟩, ⟨⟨2, ![n, 1]⟩, x1⟩, ⟨⟨2, ![n, 1]⟩, x2⟩, ⟨⟨2, ![n, 1]⟩, x3⟩] :
        List ((s : Shape) × (s.Idx → α))).map (·.1)) (⟨2, ![n, 4]⟩ : Shape) 1)
    (r : Fin n) (k : Fin 4) :
    concatenate (⟨2, ![n, 4]⟩ : Shape) 1
        [⟨⟨2, ![n, 1]⟩, x0⟩, ⟨⟨2, ![n, 1]⟩, x1⟩, ⟨⟨2, ![n, 1]⟩, x2⟩, ⟨⟨2, ![n, 1]⟩, x3⟩] h (ix2 r k)
      = (![x0, x1, x2, x3] k) (ix2 r 0) := by
  have hi : ∀ b : Fin (⟨2, ![n, 1]⟩ : Shape).rank, b.cast (rfl : (2 : Nat) = 2) ≠ (1 : Fin 2) →
      ((ix2 r (0 : Fin 1)) b).val = ((ix2 r k) (b.cast rfl)).val := fun b hb => by
    match b with
    | ⟨0, _⟩ => rfl
    | ⟨1, _⟩ => exact absurd rfl hb
  match k with
  | ⟨0, _⟩ => exact concatenate_apply_piece 1 _ h _ 0 (show 0 < 4 by decide) _ x0 rfl rfl 0 rfl (ix2 r 0) hi rfl
  | ⟨1, _⟩ => exact concatenate_apply_piece 1 _ h _ 1 (show 1 < 4 by decide) _ x1 rfl rfl 1 rfl (ix2 r 0) hi rfl
  | ⟨2, _⟩ => exact concatenate_apply_piece 1 _ h _ 2 (show 2 < 4 by decide) _ x2 rfl rfl 2 rfl (ix2 r 0) hi rfl
  | ⟨3, _⟩ => exact concatenate_apply_piece 1 _ h _ 3 (show 3 < 4 by decide) _ x3 rfl rfl 3 rfl (ix2 r 0) hi rfl

end Cert.Columns
-- ==== Proof.KernelRow.lean ====
/-
  One row of a block through the kernel body, at the ideal instance.

  The body loads the two `[2048, 4]` blocks, takes their columns 3, 2, 1, 0 as `[2048, 1]` slices, runs the
  gate chain of `Subtractor.lean` on them column by column with the borrow carried along, and stores the four
  difference columns concatenated (column 0 first) and the last borrow. Read at row `r`, every intermediate
  value is the corresponding gate of the row's bits: each step below first restates a value at `(r, ·)` as a
  gate of the values it is computed from (true by unfolding the pointwise operations), then substitutes
  those. The concatenation is read column by column.
-/
import proofs.«115550_j43860206027272_1_alg».proof.Proof.Gen.KernelIdeal.Skeleton
import proofs.«115550_j43860206027272_1_alg».proof.Proof.Subtractor
import proofs.«115550_j43860206027272_1_alg».proof.Proof.LibColumns

noncomputable section

namespace Cert.KernelIdeal.RowValue

open Idealize.ShloMosaic Idealize.ShloMosaic.ValueIdx
open Cert.KernelIdeal Cert.KernelIdeal.Gen Cert.Subtractor Cert.Columns

variable (x0 x1 : FVec Ideal S2048x4 .f32) (r : Fin 2048) (z : Fin 1)

/-! ## The eight column slices -/

theorem colA3 : k0_pay2 (F := Ideal) x0 (ix2 r z) = rowOf x0 r 3 := slice_col_apply 3 x0 slices_S2048x4_o0_3_S2048x1 r z 3 rfl
theorem colB3 : k0_pay3 (F := Ideal) x1 (ix2 r z) = rowOf x1 r 3 := slice_col_apply 3 x1 slices_S2048x4_o0_3_S2048x1 r z 3 rfl
theorem colA2 : k0_pay6 (F := Ideal) x0 (ix2 r z) = rowOf x0 r 2 := slice_col_apply 2 x0 slices_S2048x4_o0_2_S2048x1 r z 2 rfl
theorem colB2 : k0_pay7 (F := Ideal) x1 (ix2 r z) = rowOf x1 r 2 := slice_col_apply 2 x1 slices_S2048x4_o0_2_S2048x1 r z 2 rfl
theorem colA1 : k0_pay14 (F := Ideal) x0 (ix2 r z) = rowOf x0 r 1 := slice_col_apply 1 x0 slices_S2048x4_o0_1_S2048x1 r z 1 rfl
theorem colB1 : k0_pay15 (F := Ideal) x1 (ix2 r z) = rowOf x1 r 1 := slice_col_apply 1 x1 slices_S2048x4_o0_1_S2048x1 r z 1 rfl
theorem colA0 : k0_pay17 (F := Ideal) x0 (ix2 r z) = rowOf x0 r 0 := slice_col_apply 0 x0 slices_S2048x4_o0_0_S2048x1 r z 0 rfl
theorem colB0 : k0_pay18 (F := Ideal) x1 (ix2 r z) = rowOf x1 r 0 := slice_col_apply 0 x1 slices_S2048x4_o0_0_S2048x1 r z 0 rfl

/-! ## Column 3: the borrow starts at zero -/

theorem diff3_at : k0_pay4 (F := Ideal) x0 x1 (ix2 r z) = diff3 (rowOf x0 r) (rowOf x1 r) := by
  have e : k0_pay4 (F := Ideal) x0 x1 (ix2 r z)
      = diffBit (k0_pay2 (F := Ideal) x0 (ix2 r z)) (k0_pay3 (F := Ideal) x1 (ix2 r z)) lit0 := rfl
  rw [e, colA3, colB3]; rfl

theorem borrow3_at : k0_pay5 (F := Ideal) x0 x1 (ix2 r z) = borrow3 (rowOf x0 r) (rowOf x1 r) := by
  have e : k0_pay5 (F := Ideal) x0 x1 (ix2 r z)
      = borrowBit (k0_pay2 (F := Ideal) x0 (ix2 r z)) (k0_pay3 (F := Ideal) x1 (ix2 r z)) lit0 := rfl
  rw [e, colA3, colB3]; rfl

/-! ## Column 2 -/

theorem diff2_at : k0_pay8 (F := Ideal) x0 x1 (ix2 r z) = diff2 (rowOf x0 r) (rowOf x1 r) := by
  have e : k0_pay8 (F := Ideal) x0 x1 (ix2 r z)
      = diffBit (k0_pay6 (F := Ideal) x0 (ix2 r z)) (k0_pay7 (F := Ideal) x1 (ix2 r z))
          (k0_pay5 (F := Ideal) x0 x1 (ix2 r z)) := rfl
  rw [e, colA2, colB2, borrow3_at]; rfl

/-- The borrow out of column 2 is carried to the body's second half as a sum and a product; their
    difference is the borrow. -/
theorem borrow2_at :
    k0_pay13 (F := Ideal) (k0_pay11 x0 x1) (k0_pay12 x0 x1) (ix2 r z) = borrow2 (rowOf x0 r) (rowOf x1 r) := by
  have e : k0_pay13 (F := Ideal) (k0_pay11 x0 x1) (k0_pay12 x0 x1) (ix2 r z)
      = borrowBit (k0_pay6 (F := Ideal) x0 (ix2 r z)) (k0_pay7 (F := Ideal) x1 (ix2 r z))
          (k0_pay5 (F := Ideal) x0 x1 (ix2 r z)) := rfl
  rw [e, colA2, colB2, borrow3_at]; rfl

/-! ## Column 1 -/

theorem borrow1_at :
    k0_pay16 (F := Ideal) x0 x1 (k0_pay11 x0 x1) (k0_pay12 x0 x1) (ix2 r z) = borrow1 (rowOf x0 r) (rowOf x1 r) := by
  have e : k0_pay16 (F := Ideal) x0 x1 (k0_pay11 x0 x1) (k0_pay12 x0 x1) (ix2 r z)
      = borrowBit (k0_pay14 (F := Ideal) x0 (ix2 r z)) (k0_pay15 (F := Ideal) x1 (ix2 r z))
          (k0_pay13 (F := Ideal) (k0_pay11 x0 x1) (k0_pay12 x0 x1) (ix2 r z)) := rfl
  rw [e, colA1, colB1, borrow2_at]; rfl

/-! ## Column 0, and the last borrow -/

theorem borrow0_at :
    k0_pay19 (F := Ideal) x0 x1 (k0_pay11 x0 x1) (k0_pay12 x0 x1) (ix2 r z) = borrow0 (rowOf x0 r) (rowOf x1 r) := by
  have e : k0_pay19 (F := Ideal) x0 x1 (k0_pay11 x0 x1) (k0_pay12 x0 x1) (ix2 r z)
      = borrowBit (k0_pay17 (F := Ideal) x0 (ix2 r z)) (k0_pay18 (F := Ideal) x1 (ix2 r z))
          (k0_pay16 (F := Ideal) x0 x1 (k0_pay11 x0 x1) (k0_pay12 x0 x1) (ix2 r z)) := rfl
  rw [e, colA0, colB0, borrow1_at]; rfl

/-! ## The stored block of difference bits -/

/-- The difference column of bit 1, as the body computes it from the carried borrow. -/
def diffCol1 (v46 v47 : FVec Ideal S2048x1 .f32) : FVec Ideal S2048x1 .f32 := fun i =>
  diffBit (k0_pay14 (F := Ideal) x0 i) (k0_pay15 (F := Ideal) x1 i) (k0_pay13 (F := Ideal) v46 v47 i)
/-- The difference column of bit 0. -/
def diffCol0 (v46 v47 : FVec Ideal S2048x1 .f32) : FVec Ideal S2048x1 .f32 := fun i =>
  diffBit (k0_pay17 (F := Ideal) x0 i) (k0_pay18 (F := Ideal) x1 i) (k0_pay16 (F := Ideal) x0 x1 v46 v47 i)

/-- The stored value is the four difference columns side by side, bit 0 first. -/
theorem stored_eq (v14 v37 v46 v47 : FVec Ideal S2048x1 .f32) :
    k0_pay20 (F := Ideal) x0 x1 v14 v37 v46 v47
      = concatenate S2048x4 1 [⟨S2048x1, diffCol0 x0 x1 v46 v47⟩, ⟨S2048x1, diffCol1 x0 x1 v46 v47⟩, ⟨S2048x1, v37⟩, ⟨S2048x1, v14⟩]
          concatenates_S2048x1_S2048x1_S2048x1_S2048x1_S2048x4_d1 := rfl

theorem diff1_at : diffCol1 x0 x1 (k0_pay11 x0 x1) (k0_pay12 x0 x1) (ix2 r z) = diff1 (rowOf x0 r) (rowOf x1 r) := by
  show diffBit (k0_pay14 (F := Ideal) x0 (ix2 r z)) (k0_pay15 (F := Ideal) x1 (ix2 r z))
      (k0_pay13 (F := Ideal) (k0_pay11 x0 x1) (k0_pay12 x0 x1) (ix2 r z)) = _
  rw [colA1, colB1, borrow2_at]; rfl

theorem diff0_at : diffCol0 x0 x1 (k0_pay11 x0 x1) (k0_pay12 x0 x1) (ix2 r z) = diff0 (rowOf x0 r) (rowOf x1 r) := by
  show diffBit (k0_pay17 (F := Ideal) x0 (ix2 r z)) (k0_pay18 (F := Ideal) x1 (ix2 r z))
      (k0_pay16 (F := Ideal) x0 x1 (k0_pay11 x0 x1) (k0_pay12 x0 x1) (ix2 r z)) = _
  rw [colA0, colB0, borrow1_at]; rfl

/-- The stored block at `(r, k)` is difference bit `k` of row `r`. -/
theorem stored_at (k : Fin 4) :
    k0_pay20 (F := Ideal) x0 x1 (k0_pay4 x0 x1) (k0_pay8 x0 x1) (k0_pay11 x0 x1) (k0_pay12 x0 x1) (ix2 r k)
      = diffs (rowOf x0 r) (rowOf x1 r) k := by
  rw [stored_eq]
  refine (concat4_cols_apply _ _ _ _ _ r k).trans ?_
  match k with
  | ⟨0, _⟩ => exact diff0_at x0 x1 r 0
  | ⟨1, _⟩ => exact diff1_at x0 x1 r 0
  | ⟨2, _⟩ => exact diff2_at x0 x1 r 0
  | ⟨3, _⟩ => exact diff3_at x0 x1 r 0

end Cert.KernelIdeal.RowValue

end
-- ==== Proof.KernelBlocks.lean ====
/-
  The kernel's blocks as blocks of the whole arrays, at the ideal instance.

  The grid has 4096 points; at point `t` every window's block index is `(t, 0)`, so the block of a
  `[8388608, w]` array is its rows `2048 t … 2048 t + 2047`, all columns. Row `p` of a block is therefore row
  `2048 t + p` of the array, and what the body leaves in the two output buffers at point `t` — the
  subtractor of `Subtractor.lean` on each of the block's rows (`KernelRow.lean`) — is block `t` of the
  subtractor applied to every row of the argument arrays. Every row lies in exactly the block of point
  `row / 2048`, which writes back: the blocks cover both output arrays.
-/
import proofs.«115550_j43860206027272_1_alg».proof.Proof.Gen.KernelIdeal.Frame
import proofs.«115550_j43860206027272_1_alg».proof.Proof.KernelRow
import Idealize.ShloMosaic.Lib.Pipeline.Value

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.RowValue Cert.Subtractor

variable (m : (ℓ : Loc nD τ sig) → Buf (Elt Ideal) ℓ)

/-! ## The index maps over the grid -/

/-- At point `t` every window's block index is `(t, 0)` (decided over the 4096 points). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 4096 := lt_of_lt_of_eq t.isLt N_0

/-- Row `p` of the block of point `t`, as a row of the array. -/
def blockRow (t : Fin cfg0.N) (p : Fin 2048) : Fin 8388608 :=
  ⟨t.val * 2048 + p.val, by have := point_lt t; have := p.isLt; omega⟩

/-! ## Where a block's index lands in its array -/

theorem emb0 (t : Fin cfg0.N) (p : Fin 2048) (k : Fin 4) :
    ((cfg0.win 0).blk t).view.emb (ix2 p k) = ix2 (blockRow t p) k := by
  obtain ⟨e0, e1, -⟩ := idx_facts t
  funext a; apply Fin.ext
  match a with
  | ⟨0, _⟩ => show win0_0.index t (0 : Fin 2) * 2048 + 1 * p.val = t.val * 2048 + p.val; rw [e0]; omega
  | ⟨1, _⟩ => show win0_0.index t (1 : Fin 2) * 4 + 1 * k.val = k.val; rw [e1]; omega

theorem emb1 (t : Fin cfg0.N) (p : Fin 2048) (k : Fin 4) :
    ((cfg0.win 1).blk t).view.emb (ix2 p k) = ix2 (blockRow t p) k := by
  obtain ⟨-, -, e0, e1, -⟩ := idx_facts t
  funext a; apply Fin.ext
  match a with
  | ⟨0, _⟩ => show win0_1.index t (0 : Fin 2) * 2048 + 1 * p.val = t.val * 2048 + p.val; rw [e0]; omega
  | ⟨1, _⟩ => show win0_1.index t (1 : Fin 2) * 4 + 1 * k.val = k.val; rw [e1]; omega

theorem emb2 (t : Fin cfg0.N) (p : Fin 2048) (k : Fin 4) :
    ((cfg0.win 2).blk t).view.emb (ix2 p k) = ix2 (blockRow t p) k := by
  obtain ⟨-, -, -, -, e0, e1, -⟩ := idx_facts t
  funext a; apply Fin.ext
  match a with
  | ⟨0, _⟩ => show win0_2.index t (0 : Fin 2) * 2048 + 1 * p.val = t.val * 2048 + p.val; rw [e0]; omega
  | ⟨1, _⟩ => show win0_2.index t (1 : Fin 2) * 4 + 1 * k.val = k.val; rw [e1]; omega

theorem emb3 (t : Fin cfg0.N) (p : Fin 2048) (z : Fin 1) :
    ((cfg0.win 3).blk t).view.emb (ix2 p z) = ix2 (blockRow t p) z := by
  obtain ⟨-, -, -, -, -, -, e0, e1⟩ := idx_facts t
  funext a; apply Fin.ext
  match a with
  | ⟨0, _⟩ => show win0_3.index t (0 : Fin 2) * 2048 + 1 * p.val = t.val * 2048 + p.val; rw [e0]; omega
  | ⟨1, _⟩ => show win0_3.index t (1 : Fin 2) * 1 + 1 * z.val = z.val; rw [e1]; omega

/-! ## The blocks and the arrays, by their literal types -/

/-- The two input blocks at point `t`, and the two argument arrays as the region finds them. -/
abbrev ablk (c : Dev nD) (t : Fin cfg0.N) : FVec Ideal S2048x4 .f32 := iblk m c 0 t
abbrev bblk (c : Dev nD) (t : Fin cfg0.N) : FVec Ideal S2048x4 .f32 := iblk m c 1 t
abbrev aarr (c : Dev nD) : FVec Ideal S8388608x4 .f32 := V m c main_arg0
abbrev barr (c : Dev nD) : FVec Ideal S8388608x4 .f32 := V m c main_arg1

/-- Row `p` of an input block is row `2048 t + p` of its array. -/
theorem ablk_row (c : Dev nD) (t : Fin cfg0.N) (p : Fin 2048) :
    rowOf (ablk m c t) p = rowOf (aarr m c) (blockRow t p) := by
  funext k
  show V m c main_arg0 (((cfg0.win 0).blk t).view.emb (ix2 p k)) = V m c main_arg0 (ix2 (blockRow t p) k)
  rw [emb0 t p k]

theorem bblk_row (c : Dev nD) (t : Fin cfg0.N) (p : Fin 2048) :
    rowOf (bblk m c t) p = rowOf (barr m c) (blockRow t p) := by
  funext k
  show V m c main_arg1 (((cfg0.win 1).blk t).view.emb (ix2 p k)) = V m c main_arg1 (ix2 (blockRow t p) k)
  rw [emb1 t p k]

/-! ## What the body leaves in the output buffers -/

theorem zero_offsets : (![0, 0] : Fin 2 → Nat) = fun _ => 0 :=
  funext fun a => by match a with | ⟨0, _⟩ => rfl | ⟨1, _⟩ => rfl

/-- Each buffer is written by one whole-block store of a value of the two whole-block loads. -/
theorem out2_eq (x0 x1 : FVec Ideal S2048x4 .f32) :
    out0_2 (F := Ideal) x0 x1
      = k0_pay20 (F := Ideal) x0 x1 (k0_pay4 x0 x1) (k0_pay8 x0 x1) (k0_pay11 x0 x1) (k0_pay12 x0 x1) := by
  unfold out0_2
  rw [View.canon_unit_zero zero_offsets]
  simp only [View.ld_unit_zero (S := S2048x4) zero_offsets]

theorem out3_eq (x0 x1 : FVec Ideal S2048x4 .f32) :
    out0_3 (F := Ideal) x0 x1 = k0_pay19 (F := Ideal) x0 x1 (k0_pay11 x0 x1) (k0_pay12 x0 x1) := by
  unfold out0_3
  rw [View.canon_unit_zero zero_offsets]
  simp only [View.ld_unit_zero (S := S2048x4) zero_offsets]

theorem out2_at (x0 x1 : FVec Ideal S2048x4 .f32) (p : Fin 2048) (q : Fin 4) :
    out0_2 (F := Ideal) x0 x1 (ix2 p q) = diffs (rowOf x0 p) (rowOf x1 p) q := by
  rw [out2_eq]; exact stored_at x0 x1 p q

theorem out3_at (x0 x1 : FVec Ideal S2048x4 .f32) (p : Fin 2048) (z : Fin 1) :
    out0_3 (F := Ideal) x0 x1 (ix2 p z) = borrow0 (rowOf x0 p) (rowOf x1 p) := by
  rw [out3_eq]; exact borrow0_at x0 x1 p z

/-- At point `t` the difference buffer is block `t` of the subtractor's difference array … -/
theorem block2_eq (c : Dev nD) (t : Fin cfg0.N) :
    out0_2 (F := Ideal) (ablk m c t) (bblk m c t)
      = ((cfg0.win 2).blk t).view.read (Elt Ideal) (diffArray (aarr m c) (barr m c)) := by
  funext j
  obtain ⟨p, q, rfl⟩ : ∃ (p : Fin 2048) (q : Fin 4), j = ix2 p q := ⟨j 0, j 1, eq_ix2 j⟩
  refine (out2_at (ablk m c t) (bblk m c t) p q).trans ?_
  show _ = diffArray (aarr m c) (barr m c) (((cfg0.win 2).blk t).view.emb (ix2 p q))
  rw [emb2 t p q, diffArray_apply, ablk_row m c t p, bblk_row m c t p]

/-- … and the borrow buffer block `t` of its borrow column. -/
theorem block3_eq (c : Dev nD) (t : Fin cfg0.N) :
    out0_3 (F := Ideal) (ablk m c t) (bblk m c t)
      = ((cfg0.win 3).blk t).view.read (Elt Ideal) (borrowArray (aarr m c) (barr m c)) := by
  funext j
  obtain ⟨p, z, rfl⟩ : ∃ (p : Fin 2048) (z : Fin 1), j = ix2 p z := ⟨j 0, j 1, eq_ix2 j⟩
  refine (out3_at (ablk m c t) (bblk m c t) p z).trans ?_
  show _ = borrowArray (aarr m c) (barr m c) (((cfg0.win 3).blk t).view.emb (ix2 p z))
  rw [emb3 t p z, borrowArray_apply, ablk_row m c t p, bblk_row m c t p]

/-! ## The blocks cover the output arrays -/

theorem mem_blk2 (t : Fin cfg0.N) (i : S8388608x4.Idx) :
    i ∈ ((cfg0.win 2).blk t).view.set ↔ ∀ a : Fin 2, win0_2.index t a * S2048x4.size a ≤ (i a).val
      ∧ (i a).val < win0_2.index t a * S2048x4.size a + S2048x4.size a := by
  show i ∈ ((View.whole main_v0_0).slice (win0_2.rect t)).set ↔ _
  rw [View.set_slice_whole, Rect.mem_set_unit]
  exact Iff.rfl

theorem mem_blk3 (t : Fin cfg0.N) (i : S8388608x1.Idx) :
    i ∈ ((cfg0.win 3).blk t).view.set ↔ ∀ a : Fin 2, win0_3.index t a * S2048x1.size a ≤ (i a).val
      ∧ (i a).val < win0_3.index t a * S2048x1.size a + S2048x1.size a := by
  show i ∈ ((View.whole main_v0_1).slice (win0_3.rect t)).set ↔ _
  rw [View.set_slice_whole, Rect.mem_set_unit]
  exact Iff.rfl

/-- Every index of the difference array is in the block of the point `row / 2048`, which writes back. -/
theorem cover2 (i : S8388608x4.Idx) :
    ∃ t : Fin cfg0.N, (cfg0.win 2).flush t = true ∧ i ∈ ((cfg0.win 2).blk t).view.set := by
  have hi0 : (i 0).val < 8388608 := (i 0).isLt
  have hi1 : (i 1).val < 4 := (i 1).isLt
  obtain ⟨t, ht⟩ : ∃ t : Fin cfg0.N, t.val = (i 0).val / 2048 :=
    ⟨⟨(i 0).val / 2048, by rw [show cfg0.N = 4096 from N_0]; omega⟩, rfl⟩
  obtain ⟨-, -, -, -, e0, e1, -⟩ := idx_facts t
  refine ⟨t, flush0_2 t, ?_⟩
  rw [mem_blk2]
  intro a
  match a with
  | ⟨0, _⟩ =>
    show win0_2.index t (0 : Fin 2) * 2048 ≤ (i 0).val ∧ (i 0).val < win0_2.index t (0 : Fin 2) * 2048 + 2048
    rw [e0, ht]; omega
  | ⟨1, _⟩ =>
    show win0_2.index t (1 : Fin 2) * 4 ≤ (i 1).val ∧ (i 1).val < win0_2.index t (1 : Fin 2) * 4 + 4
    rw [e1]; omega

theorem cover3 (i : S8388608x1.Idx) :
    ∃ t : Fin cfg0.N, (cfg0.win 3).flush t = true ∧ i ∈ ((cfg0.win 3).blk t).view.set := by
  have hi0 : (i 0).val < 8388608 := (i 0).isLt
  have hi1 : (i 1).val < 1 := (i 1).isLt
  obtain ⟨t, ht⟩ : ∃ t : Fin cfg0.N, t.val = (i 0).val / 2048 :=
    ⟨⟨(i 0).val / 2048, by rw [show cfg0.N = 4096 from N_0]; omega⟩, rfl⟩
  obtain ⟨-, -, -, -, -, -, e0, e1⟩ := idx_facts t
  refine ⟨t, flush0_3 t, ?_⟩
  rw [mem_blk3]
  intro a
  match a with
  | ⟨0, _⟩ =>
    show win0_3.index t (0 : Fin 2) * 2048 ≤ (i 0).val ∧ (i 0).val < win0_3.index t (0 : Fin 2) * 2048 + 2048
    rw [e0, ht]; omega
  | ⟨1, _⟩ =>
    show win0_3.index t (1 : Fin 2) * 1 ≤ (i 1).val ∧ (i 1).val < win0_3.index t (1 : Fin 2) * 1 + 1
    rw [e1]; omega

end Cert.KernelIdeal.Blocks

end
-- ==== Proof.KernelArray.lean ====
/-
  The idealized kernel's run, read: after it the difference array is the subtractor's difference bits of
  every row of the two arguments and the borrow array its last borrows, the arguments unchanged.

  What point `t` writes back to an output array is the body's buffer for it, which is block `t` of the
  subtractor applied to the whole arguments (`KernelBlocks.lean`); the blocks cover each output array, so
  each ends holding that function everywhere.
-/
import proofs.«115550_j43860206027272_1_alg».proof.Proof.Gen.KernelIdeal.Frame
import proofs.«115550_j43860206027272_1_alg».proof.Proof.KernelBlocks
import Idealize.ShloMosaic.Lib.Pipeline.Value

noncomputable section

namespace Cert.KernelIdeal.ArrayValue

open Idealize.ShloMosaic Idealize.ShloMosaic.TcCoe Idealize.SL.Sem
open Idealize.ShloMosaic.Pipeline (Dat)
open Cert.KernelIdeal Cert.KernelIdeal.Gen Cert.KernelIdeal.Blocks Cert.Subtractor

variable (m : (ℓ : Loc nD τ sig) → Buf (Elt Ideal) ℓ) (ρ : Dev nD → PrngReg)

/-- Point `t` writes block `t` of the difference array of the arguments … -/
theorem flushed2_eq (c : Dev nD) (t : Fin cfg0.N) :
    (dats m 0 c).flushed 2 t
      = ((cfg0.win 2).blk t).view.read (Elt Ideal) (diffArray (aarr m c) (barr m c)) := by
  show (cfg0.win 2).cut (grid0.coords t) ((dats m 0 c).after 2 t) = _
  rw [after0_2]
  exact block2_eq m c t

/-- … and block `t` of their borrow column. -/
theorem flushed3_eq (c : Dev nD) (t : Fin cfg0.N) :
    (dats m 0 c).flushed 3 t
      = ((cfg0.win 3).blk t).view.read (Elt Ideal) (borrowArray (aarr m c) (barr m c)) := by
  show (cfg0.win 3).cut (grid0.coords t) ((dats m 0 c).after 3 t) = _
  rw [after0_3]
  exact block3_eq m c t

/-- The blocks cover the arrays, so after the last point each output array is the function itself. -/
theorem final2 (c : Dev nD) :
    (dats m 0 c).arrAt 2 cfg0.N
      = diffArray (m ((c : Thread nD τ).loc main_arg0)) (m ((c : Thread nD τ).loc main_arg1)) :=
  (dats m 0 c).arrAt_eq_of_cover 2 (diffArray (aarr m c) (barr m c)) (fun t _ => flushed2_eq m c t) cover2

theorem final3 (c : Dev nD) :
    (dats m 0 c).arrAt 3 cfg0.N
      = borrowArray (m ((c : Thread nD τ).loc main_arg0)) (m ((c : Thread nD τ).loc main_arg1)) :=
  (dats m 0 c).arrAt_eq_of_cover 3 (borrowArray (aarr m c) (barr m c)) (fun t _ => flushed3_eq m c t) cover3

/-- The frame run with its posts read: both results as functions of the arguments, the arguments kept. -/
theorem run : θ_run defs (onTc (τ := τ) (main (F := Ideal))) ⟨m, fun _ => 0, ρ⟩ fun r => ∀ c : Dev nD,
      r.2.mem ((c : Thread nD τ).loc main_v0_0)
        = diffArray (m ((c : Thread nD τ).loc main_arg0)) (m ((c : Thread nD τ).loc main_arg1))
      ∧ r.2.mem ((c : Thread nD τ).loc main_v0_1)
        = borrowArray (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final2 m c), ((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.ArrayValue

end
-- ==== Proof.ReferenceValue.lean ====
/-
  The idealized reference's two results, as functions of its arguments.

  The reference is one line of whole-array operations: the columns 3, 2, 1, 0 of the two `[8388608, 4]`
  arguments as `[8388608, 1]` slices, the gate chain of `Subtractor.lean` on them with the borrow carried from
  column to column, the four difference columns concatenated (column 0 first) and the last borrow. Its run
  names the intermediate arrays that are used more than once; among them are the three carried borrows. Read at
  row `r`, each is the corresponding gate of the row's bits: restated as a gate of the values it is computed
  from (by unfolding the pointwise operations), then those substituted. So the first result is the subtractor's
  difference bits of every row and the second its last borrows.
-/
import proofs.«115550_j43860206027272_1_alg».proof.Proof.Gen.ReferenceIdeal.Run
import proofs.«115550_j43860206027272_1_alg».proof.Proof.Subtractor
import proofs.«115550_j43860206027272_1_alg».proof.Proof.LibColumns

noncomputable section

namespace Cert.ReferenceIdeal.RowValue

open Idealize.ShloMosaic Idealize.ShloMosaic.TcCoe Idealize.ShloMosaic.ValueIdx Idealize.ShloMosaic.StableHlo
open Cert.ReferenceIdeal Cert.ReferenceIdeal.Gen Cert.ReferenceIdeal.Value Cert.Subtractor Cert.Columns

variable (V : Valuation τ sig (Elt Ideal)) (r : Fin 8388608) (z : Fin 1)

/-- The two argument arrays among the buffer contents the line starts from. -/
abbrev argA : FVec Ideal S8388608x4 .f32 := V (Proc.devRef .tc main_arg0)
abbrev argB : FVec Ideal S8388608x4 .f32 := V (Proc.devRef .tc main_arg1)

/-- The named intermediate arrays, by their literal type. -/
abbrev a3 : FVec Ideal S8388608x1 .f32 := res_main_v2 (F := Ideal) V
abbrev b3 : FVec Ideal S8388608x1 .f32 := res_main_v3 (F := Ideal) V
abbrev a2 : FVec Ideal S8388608x1 .f32 := res_main_v25 (F := Ideal) V
abbrev b2 : FVec Ideal S8388608x1 .f32 := res_main_v26 (F := Ideal) V
abbrev a1 : FVec Ideal S8388608x1 .f32 := res_main_v48 (F := Ideal) V
abbrev b1 : FVec Ideal S8388608x1 .f32 := res_main_v49 (F := Ideal) V
abbrev a0 : FVec Ideal S8388608x1 .f32 := res_main_v71 (F := Ideal) V
abbrev b0 : FVec Ideal S8388608x1 .f32 := res_main_v72 (F := Ideal) V
abbrev br3 : FVec Ideal S8388608x1 .f32 := res_main_v24 (F := Ideal) V
abbrev br2 : FVec Ideal S8388608x1 .f32 := res_main_v47 (F := Ideal) V
abbrev br1 : FVec Ideal S8388608x1 .f32 := res_main_v70 (F := Ideal) V

/-! ## The eight column slices -/

theorem colA3 : a3 V (ix2 r z) = rowOf (argA V) r 3 := slice_col_apply 3 (argA V) slices_S8388608x4_S8388608x1_0_3 r z 3 rfl
theorem colB3 : b3 V (ix2 r z) = rowOf (argB V) r 3 := slice_col_apply 3 (argB V) slices_S8388608x4_S8388608x1_0_3 r z 3 rfl
theorem colA2 : a2 V (ix2 r z) = rowOf (argA V) r 2 := slice_col_apply 2 (argA V) slices_S8388608x4_S8388608x1_0_2 r z 2 rfl
theorem colB2 : b2 V (ix2 r z) = rowOf (argB V) r 2 := slice_col_apply 2 (argB V) slices_S8388608x4_S8388608x1_0_2 r z 2 rfl
theorem colA1 : a1 V (ix2 r z) = rowOf (argA V) r 1 := slice_col_apply 1 (argA V) slices_S8388608x4_S8388608x1_0_1 r z 1 rfl
theorem colB1 : b1 V (ix2 r z) = rowOf (argB V) r 1 := slice_col_apply 1 (argB V) slices_S8388608x4_S8388608x1_0_1 r z 1 rfl
theorem colA0 : a0 V (ix2 r z) = rowOf (argA V) r 0 := slice_col_apply 0 (argA V) slices_S8388608x4_S8388608x1_0_0 r z 0 rfl
theorem colB0 : b0 V (ix2 r z) = rowOf (argB V) r 0 := slice_col_apply 0 (argB V) slices_S8388608x4_S8388608x1_0_0 r z 0 rfl

/-! ## The carried borrows -/

theorem borrow3_at : br3 V (ix2 r z) = borrow3 (rowOf (argA V) r) (rowOf (argB V) r) := by
  have e : br3 V (ix2 r z) = borrowBit (a3 V (ix2 r z)) (b3 V (ix2 r z)) lit0 := rfl
  rw [e, colA3, colB3]; rfl

theorem borrow2_at : br2 V (ix2 r z) = borrow2 (rowOf (argA V) r) (rowOf (argB V) r) := by
  have e : br2 V (ix2 r z) = borrowBit (a2 V (ix2 r z)) (b2 V (ix2 r z)) (br3 V (ix2 r z)) := rfl
  rw [e, colA2, colB2, borrow3_at]; rfl

theorem borrow1_at : br1 V (ix2 r z) = borrow1 (rowOf (argA V) r) (rowOf (argB V) r) := by
  have e : br1 V (ix2 r z) = borrowBit (a1 V (ix2 r z)) (b1 V (ix2 r z)) (br2 V (ix2 r z)) := rfl
  rw [e, colA1, colB1, borrow2_at]; rfl

/-! ## The two results -/

/-- `xor p q` on whole columns, as the reference spells it. -/
def xorCol (p q : FVec Ideal S8388608x1 .f32) : FVec Ideal S8388608x1 .f32 :=
  subf (addf p q) (mulf (mulf (broadcastInDim S8388608x1 ![] bcast_S_S8388608x1 (constant (F := Ideal) S_ .f32 0x40000000#32)) p) q)

/-- The four difference columns. -/
def dcol3 : FVec Ideal S8388608x1 .f32 := xorCol (res_main_v8 (F := Ideal) V) (res_main_v1 (F := Ideal) V)
def dcol2 : FVec Ideal S8388608x1 .f32 := xorCol (res_main_v31 (F := Ideal) V) (res_main_v24 (F := Ideal) V)
def dcol1 : FVec Ideal S8388608x1 .f32 := xorCol (res_main_v54 (F := Ideal) V) (res_main_v47 (F := Ideal) V)
def dcol0 : FVec Ideal S8388608x1 .f32 := xorCol (res_main_v77 (F := Ideal) V) (res_main_v70 (F := Ideal) V)

theorem diff3_at : dcol3 V (ix2 r z) = diff3 (rowOf (argA V) r) (rowOf (argB V) r) := by
  have e : dcol3 V (ix2 r z) = diffBit (a3 V (ix2 r z)) (b3 V (ix2 r z)) lit0 := rfl
  rw [e, colA3, colB3]; rfl

theorem diff2_at : dcol2 V (ix2 r z) = diff2 (rowOf (argA V) r) (rowOf (argB V) r) := by
  have e : dcol2 V (ix2 r z) = diffBit (a2 V (ix2 r z)) (b2 V (ix2 r z)) (br3 V (ix2 r z)) := rfl
  rw [e, colA2, colB2, borrow3_at]; rfl

theorem diff1_at : dcol1 V (ix2 r z) = diff1 (rowOf (argA V) r) (rowOf (argB V) r) := by
  have e : dcol1 V (ix2 r z) = diffBit (a1 V (ix2 r z)) (b1 V (ix2 r z)) (br2 V (ix2 r z)) := rfl
  rw [e, colA1, colB1, borrow2_at]; rfl

theorem diff0_at : dcol0 V (ix2 r z) = diff0 (rowOf (argA V) r) (rowOf (argB V) r) := by
  have e : dcol0 V (ix2 r z) = diffBit (a0 V (ix2 r z)) (b0 V (ix2 r z)) (br1 V (ix2 r z)) := rfl
  rw [e, colA0, colB0, borrow1_at]; rfl

/-- The last borrow, as the run states it. -/
def lastBorrow : FVec Ideal S8388608x1 .f32 :=
  subf (addf (res_main_v90 (F := Ideal) V) (res_main_v87 (F := Ideal) V)) (mulf (res_main_v90 (F := Ideal) V) (res_main_v87 (F := Ideal) V))

theorem borrow0_at : lastBorrow V (ix2 r z) = borrow0 (rowOf (argA V) r) (rowOf (argB V) r) := by
  have e : lastBorrow V (ix2 r z) = borrowBit (a0 V (ix2 r z)) (b0 V (ix2 r z)) (br1 V (ix2 r z)) := rfl
  rw [e, colA0, colB0, borrow1_at]; rfl

/-- The first result: the four difference columns side by side are the difference bits of every row. -/
theorem result_eq :
    concatenate S8388608x4 1 [⟨S8388608x1, dcol0 V⟩, ⟨S8388608x1, dcol1 V⟩, ⟨S8388608x1, dcol2 V⟩, ⟨S8388608x1, dcol3 V⟩]
        concatenates_S8388608x1_S8388608x1_S8388608x1_S8388608x1_S8388608x4_d1
      = diffArray (argA V) (argB V) := by
  funext j
  obtain ⟨r, k, rfl⟩ : ∃ (r : Fin 8388608) (k : Fin 4), j = ix2 r k := ⟨j 0, j 1, eq_ix2 j⟩
  refine (concat4_cols_apply _ _ _ _ _ r k).trans ?_
  rw [diffArray_apply]
  match k with
  | ⟨0, _⟩ => exact diff0_at V r 0
  | ⟨1, _⟩ => exact diff1_at V r 0
  | ⟨2, _⟩ => exact diff2_at V r 0
  | ⟨3, _⟩ => exact diff3_at V r 0

/-- The second result: the last borrow of every row. -/
theorem borrow_eq : lastBorrow V = borrowArray (argA V) (argB V) := by
  funext j
  obtain ⟨r, z, rfl⟩ : ∃ (r : Fin 8388608) (z : Fin 1), j = ix2 r z := ⟨j 0, j 1, eq_ix2 j⟩
  rw [borrowArray_apply]
  exact borrow0_at V r z

end Cert.ReferenceIdeal.RowValue

end
-- ==== Proof.lean ====
/-
  A four-bit ripple-borrow subtractor on 8388608 independent rows, as a pipelined kernel over row blocks and as one
  line of whole-array operations: the two compute the same arrays over the extended reals.

  Each row holds four bits of `a` and of `b`, column 3 the least significant. From column 3 up to column 0, with a
  borrow that starts at zero, a position computes `t = xor a b`, its difference bit `xor t borrow` and its outgoing
  borrow `or (or ((1 - a) b) ((1 - a) borrow)) (b borrow)`, where `xor p q = p + q - 2 p q` and `or p q = p + q - p q`
  (`Proof/Subtractor.lean`). The results are the `[8388608, 4]` array of difference bits and the `[8388608, 1]`
  column of last borrows.

  The kernel takes the rows 2048 at a time: point `t` of its grid of 4096 loads rows `2048 t … 2048 t + 2047` of both
  arguments, runs the chain on the block's columns and stores the four difference columns side by side and the
  borrow. Read at a row, its stored values are that row's gates (`Proof/KernelRow.lean`); a block's row `p` is the
  array's row `2048 t + p`, so what point `t` writes back is block `t` of the subtractor applied to the whole
  arguments, and the 4096 blocks cover both output arrays (`Proof/KernelBlocks.lean`, `Proof/KernelArray.lean`). The
  reference runs the same chain on whole columns; its run names the arrays it reuses, the three carried borrows among
  them, and read at a row they are the same gates (`Proof/ReferenceValue.lean`). Both sides spell the same terms with
  the same three literals and the same grouping, so no law of the extended reals is used, and the precondition (finite
  inputs) is never opened.

  The three frames: the two kernels' are their frame certificates; the reference's is its run with the results
  dropped. The idealization rewrote nothing, so `preserves` has no conjunct.
-/
import proofs.«115550_j43860206027272_1_alg».proof.Defs
import proofs.«115550_j43860206027272_1_alg».proof.Proof.Gen.Kernel
import proofs.«115550_j43860206027272_1_alg».proof.Proof.Gen.Kernel.Skeleton
import proofs.«115550_j43860206027272_1_alg».proof.Proof.Gen.Kernel.Launch
import proofs.«115550_j43860206027272_1_alg».proof.Proof.Gen.Kernel.Points
import proofs.«115550_j43860206027272_1_alg».proof.Proof.Gen.Kernel.Frame
import proofs.«115550_j43860206027272_1_alg».proof.Proof.Gen.KernelIdeal
import proofs.«115550_j43860206027272_1_alg».proof.Proof.Gen.KernelIdeal.Skeleton
import proofs.«115550_j43860206027272_1_alg».proof.Proof.Gen.KernelIdeal.Launch
import proofs.«115550_j43860206027272_1_alg».proof.Proof.Gen.KernelIdeal.Points
import proofs.«115550_j43860206027272_1_alg».proof.Proof.Gen.KernelIdeal.Frame
import proofs.«115550_j43860206027272_1_alg».proof.Proof.Gen.ReferenceIdeal
import proofs.«115550_j43860206027272_1_alg».proof.Proof.Gen.Pre_finite_inputs
import proofs.«115550_j43860206027272_1_alg».proof.Proof.Gen.ReferenceIdeal.Run
import proofs.«115550_j43860206027272_1_alg».proof.Proof.KernelArray
import proofs.«115550_j43860206027272_1_alg».proof.Proof.ReferenceValue
import Idealize.ShloMosaic.Adequacy
import Idealize.ShloMosaic.Init

noncomputable section

namespace Cert.Proof

open Idealize.ShloMosaic Idealize.SL.Sem Cert.Subtractor

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From arguments that agree, both programs end with the subtractor's difference bits and last borrows of every
    row of those arguments. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · exact (Cert.ReferenceIdeal.RowValue.result_eq (StableHlo.launchContents m' c)).trans
      (congrArg₂ (diffArray (n := 8388608)) (hagree c).1 (hagree c).2)
  · exact (Cert.ReferenceIdeal.RowValue.borrow_eq (StableHlo.launchContents m' c)).trans
      (congrArg₂ (borrowArray (n := 8388608)) (hagree c).1 (hagree c).2)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
